-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128 .f32) (main_arg4 : FVec F S128 .f32) (main_arg5 : IVec S1600000 32) (main_arg6 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S5000 : Shape := ⟨1, ![5000]⟩

abbrev nBuf : Space → Nat
  | .hbm => 39
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S128x128, .bf16⟩
  | .hbm, ⟨38, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .bf16⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S100000, .i1⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000x1, .f32⟩
  | .hbm, ⟨46, _⟩ => ⟨S_, .f32⟩
  | .hbm, ⟨47, _⟩ => ⟨S100000x1, .f32⟩
  | .hbm, ⟨48, _⟩ => ⟨S100000x1, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000, .f32⟩
  | .hbm, ⟨54, _⟩ => ⟨S100000x1, .f32⟩
  | .hbm, ⟨55, _⟩ => ⟨S_, .f32⟩
  | .hbm, ⟨56, _⟩ => ⟨S100000x1, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x1, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerRow.lean ====
/-
  One graph-convolution layer, one node at a time, on the extended reals.

  A node's row of the output depends on that node alone: on its aggregated neighbour features `a : Fin 128 → EReal`
  (the segment sum of the source rows), on its degree weight `s` (`1 / deg`, or `0` for an isolated node), and on the
  shared parameters. The row is first scaled and projected,
      `proj j = (∑ k, a k * s * w k j) + b j`,
  then centred by its mean over the 128 features and scaled by the reciprocal square root of its variance plus `ε`
  (LayerNorm; both means are the sum divided by `128`), then the affine `· g j + be j`, then the positive part.
  The three float words that occur (`128.0`, `ε = f32 (1e-5)`, `0.0`) are kept as words: nothing proved about the row
  depends on which extended reals they denote.

  `layer` is the whole `[100000, 128]` result as that row function of the aggregated features `[100000, 128]`, the
  degree weights as a column `[100000, 1]`, the weights `[128, 128]` and the three parameter vectors.
-/
import Idealize.ShloMosaic.PureOps.Ideal
import Idealize.ShloMosaic.Lib.ValueIdx

noncomputable section

open scoped BigOperators

namespace Cert.GcnLayer

open Idealize.ShloMosaic Idealize.ShloMosaic.ValueIdx

/-- The projected row: the degree-scaled features times the weight matrix, plus the bias. -/
def rowProj (a : Fin 128 → EReal) (s : EReal) (w : Fin 128 → Fin 128 → EReal) (b : Fin 128 → EReal) (j : Fin 128) : EReal :=
  (∑ k : Fin 128, a k * s * w k j) + b j

/-- The mean of a row of 128 entries: their sum divided by the float `128.0`. -/
def rowMean (p : Fin 128 → EReal) : EReal :=
  Ideal.div (∑ j : Fin 128, p j) (Ideal.ofBits .f32 0x43000000#32)

/-- A row minus its mean. -/
def rowCentred (p : Fin 128 → EReal) (j : Fin 128) : EReal := p j - rowMean p

/-- The reciprocal standard deviation LayerNorm multiplies by: `rsqrt (mean of the squared centred row + ε)`. -/
def rowInvStd (p : Fin 128 → EReal) : EReal :=
  Ideal.rsqrt (rowMean (fun k => rowCentred p k * rowCentred p k) + Ideal.ofBits .f32 0x3727C5AC#32)

/-- One output row: the projected row normalised, scaled by `g`, shifted by `be`, and clipped below at zero. -/
def rowOut (a : Fin 128 → EReal) (s : EReal) (w : Fin 128 → Fin 128 → EReal) (b g be : Fin 128 → EReal) (j : Fin 128) : EReal :=
  max (rowCentred (rowProj a s w b) j * rowInvStd (rowProj a s w b) * g j + be j) (Ideal.ofBits .f32 0x00000000#32)

/-- The whole result: row `i 0` of the output is `rowOut` of row `i 0` of the aggregated features and of that row's
    degree weight. -/
def layer (ah : (⟨2, ![100000, 128]⟩ : Shape).Idx → EReal) (nrm : (⟨2, ![100000, 1]⟩ : Shape).Idx → EReal)
    (w : (⟨2, ![128, 128]⟩ : Shape).Idx → EReal) (b g be : (⟨1, ![128]⟩ : Shape).Idx → EReal) :
    (⟨2, ![100000, 128]⟩ : Shape).Idx → EReal :=
  fun i => rowOut (fun k => ah (ix2 (i 0) k)) (nrm (ix2 (i 0) (0 : Fin 1))) (fun k j => w (ix2 k j))
    (fun j => b (ix1 j)) (fun j => g (ix1 j)) (fun j => be (ix1 j)) (i 1)

/-- `layer` at the entry `(r, q)`. -/
theorem layer_apply (ah : (⟨2, ![100000, 128]⟩ : Shape).Idx → EReal) (nrm : (⟨2, ![100000, 1]⟩ : Shape).Idx → EReal)
    (w : (⟨2, ![128, 128]⟩ : Shape).Idx → EReal) (b g be : (⟨1, ![128]⟩ : Shape).Idx → EReal) (r : Fin 100000) (q : Fin 128) :
    layer ah nrm w b g be (ix2 r q)
      = rowOut (fun k => ah (ix2 r k)) (nrm (ix2 r (0 : Fin 1))) (fun k j => w (ix2 k j))
          (fun j => b (ix1 j)) (fun j => g (ix1 j)) (fun j => be (ix1 j)) q := rfl

/-- An output row is determined by the projected row: two rows that project alike come out alike. -/
theorem rowOut_of_proj (a : Fin 128 → EReal) (s : EReal) (w : Fin 128 → Fin 128 → EReal) (b g be : Fin 128 → EReal)
    (p : Fin 128 → EReal) (hp : ∀ j, p j = rowProj a s w b j) (j : Fin 128) :
    max (rowCentred p j * rowInvStd p * g j + be j) (Ideal.ofBits .f32 0x00000000#32) = rowOut a s w b g be j := by
  obtain rfl : p = rowProj a s w b := funext hp
  rfl

/-- `rowOut` depends on its arguments only through their values. -/
theorem rowOut_congr {a a' : Fin 128 → EReal} {s s' : EReal} {w w' : Fin 128 → Fin 128 → EReal} {b b' g g' be be' : Fin 128 → EReal}
    {j j' : Fin 128} (ha : ∀ k, a k = a' k) (hs : s = s') (hw : ∀ k j, w k j = w' k j) (hb : ∀ j, b j = b' j)
    (hg : ∀ j, g j = g' j) (hbe : ∀ j, be j = be' j) (hj : j = j') :
    rowOut a s w b g be j = rowOut a' s' w' b' g' be' j' := by
  obtain rfl : a = a' := funext ha
  obtain rfl : w = w' := funext fun k => funext (hw k)
  obtain rfl : b = b' := funext hb
  obtain rfl : g = g' := funext hg
  obtain rfl : be = be' := funext hbe
  subst hs hj
  rfl

end Cert.GcnLayer

end
-- ==== Proof.RefRow.lean ====
/-
  The reference's result, one entry at a time.

  After the two segment sums (the aggregated features `ah`, and the degree, turned into the weight column `nrm`) the
  reference computes, over whole `[100000, 128]` arrays, `ah · nrm` (the column broadcast over the features), the product
  with the weights plus the bias, the LayerNorm statistics of each row (host sums start from the zero word; both
  means divide by `128.0`), the affine map and the positive part. Read at the entry `(r, q)` every stage depends on row
  `r` alone, and the result there is `rowOut` of row `r` of `ah` and of `nrm`'s entry in that row: the reference's result
  is `layer` of `ah`, `nrm` and the parameters. The segment sums themselves are never opened.
-/
import proofs.«106041_j8985071583979_1_alg».proof.Proof.RefRead
import proofs.«106041_j8985071583979_1_alg».proof.Proof.LayerRow
import Idealize.ShloMosaic.PureOps.Ideal.Laws
import Idealize.ShloMosaic.Lib.ValueIdx

noncomputable section

open scoped BigOperators

namespace Cert.ReferenceIdeal.RowValue

open Cert.ReferenceIdeal Cert.ReferenceIdeal.ReadP Idealize.ShloMosaic Idealize.ShloMosaic.ValueIdx Cert.GcnLayer

/-! ## Where each stage reads its operand, at coordinates -/

theorem prodL (r : Fin 100000) (j k : Fin 128) : lidx_main_v22 (ix2 r j) k = ix2 r k := funext fun a => Fin.ext (by match a with | ⟨0, _⟩ => rfl | ⟨1, _⟩ => rfl)
theorem prodR (r : Fin 100000) (j k : Fin 128) : ridx_main_v22 (ix2 r j) k = ix2 k j := funext fun a => Fin.ext (by match a with | ⟨0, _⟩ => rfl | ⟨1, _⟩ => rfl)
theorem colOf20 (r : Fin 100000) (k : Fin 128) : idx_main_v20 (ix2 r k) = ix2 r (0 : Fin 1) := funext fun a => Fin.ext (by match a with | ⟨0, _⟩ => rfl | ⟨1, _⟩ => rfl)
theorem colOf30 (r : Fin 100000) (k : Fin 128) : idx_main_v30 (ix2 r k) = ix2 r (0 : Fin 1) := funext fun a => Fin.ext (by match a with | ⟨0, _⟩ => rfl | ⟨1, _⟩ => rfl)
theorem colOf37 (r : Fin 100000) (k : Fin 128) : idx_main_v37 (ix2 r k) = ix2 r (0 : Fin 1) := funext fun a => Fin.ext (by match a with | ⟨0, _⟩ => rfl | ⟨1, _⟩ => rfl)
theorem colOf42 (r : Fin 100000) (k : Fin 128) : idx_main_v42 (ix2 r k) = ix2 r (0 : Fin 1) := funext fun a => Fin.ext (by match a with | ⟨0, _⟩ => rfl | ⟨1, _⟩ => rfl)
theorem vecOf24 (r : Fin 100000) (j : Fin 128) : idx_main_v23 (idx_main_v24 (ix2 r j)) = ix1 j := funext fun a => Fin.ext (by match a with | ⟨0, _⟩ => rfl)
theorem vecOf45 (r : Fin 100000) (j : Fin 128) : idx_main_v44 (idx_main_v45 (ix2 r j)) = ix1 j := funext fun a => Fin.ext (by match a with | ⟨0, _⟩ => rfl)
theorem vecOf48 (r : Fin 100000) (j : Fin 128) : idx_main_v47 (idx_main_v48 (ix2 r j)) = ix1 j := funext fun a => Fin.ext (by match a with | ⟨0, _⟩ => rfl)
theorem rowOf26 (r : Fin 100000) (k : Fin 128) : idx_main_v26 (idx_main_v27 (ix2 r (0 : Fin 1))) k = ix2 r k := funext fun a => Fin.ext (by match a with | ⟨0, _⟩ => rfl | ⟨1, _⟩ => rfl)
theorem rowOf33 (r : Fin 100000) (k : Fin 128) : idx_main_v33 (idx_main_v34 (ix2 r (0 : Fin 1))) k = ix2 r k := funext fun a => Fin.ext (by match a with | ⟨0, _⟩ => rfl | ⟨1, _⟩ => rfl)

variable (x0 : (⟨S100000x128, .f32⟩ : BufTy).Contents (Elt Ideal)) (x1 : (⟨S128x128, .f32⟩ : BufTy).Contents (Elt Ideal)) (x2 x3 x4 : (⟨S128, .f32⟩ : BufTy).Contents (Elt Ideal)) (x5 x6 : (⟨S1600000, .i32⟩ : BufTy).Contents (Elt Ideal))

/-! ## The stages at coordinates -/

/-- The projected array at `(r, j)` is the projected row of row `r`. -/
theorem proj_apply (r : Fin 100000) (j : Fin 128) :
    val_main_v25 (F := Ideal) x0 x1 x2 x5 x6 (ix2 r j)
      = rowProj (fun k => val_main_v19 (F := Ideal) x0 x5 x6 (ix2 r k)) (val_main_v9 (F := Ideal) x6 (ix2 r (0 : Fin 1)))
          (fun k j => x1 (ix2 k j)) (fun j => x2 (ix1 j)) j := by
  unfold rowProj
  rw [val_main_v25_apply, val_main_v22_apply, val_main_v24_apply, val_main_v23_apply, vecOf24, Ideal.addf_def]
  refine congrArg (· + x2 (ix1 j)) (Finset.sum_congr rfl fun k _ => ?_)
  rw [prodL, prodR, val_main_v21_apply, val_main_v20_apply, colOf20, Ideal.mulf_def]

/-- The column of row means at row `r`. -/
theorem mean_apply (r : Fin 100000) :
    val_main_v29 (F := Ideal) x0 x1 x2 x5 x6 (ix2 r (0 : Fin 1))
      = rowMean (fun j => val_main_v25 (F := Ideal) x0 x1 x2 x5 x6 (ix2 r j)) := by
  unfold rowMean
  rw [val_main_v29_apply, val_main_v27_apply, val_main_v28_apply, val_main_v26_apply, val_main_cst_6_apply, val_main_cst_7_apply]
  simp only [Ideal.hostDivf_def, Ideal.ofBits_def, Ideal.ofBits_zero_f32, zero_add]
  refine congrArg (fun s => Ideal.div s (Ideal.ofBits .f32 0x43000000#32)) (Finset.sum_congr rfl fun k _ => ?_)
  rw [rowOf26]

/-- The centred array at `(r, j)`, in both places the program computes it. -/
theorem centred_apply (r : Fin 100000) (j : Fin 128) :
    val_main_v31 (F := Ideal) x0 x1 x2 x5 x6 (ix2 r j)
      = rowCentred (fun j => val_main_v25 (F := Ideal) x0 x1 x2 x5 x6 (ix2 r j)) j := by
  unfold rowCentred
  rw [val_main_v31_apply, val_main_v30_apply, colOf30, mean_apply, Ideal.subf_def]
theorem centred_apply' (r : Fin 100000) (j : Fin 128) :
    val_main_v38 (F := Ideal) x0 x1 x2 x5 x6 (ix2 r j)
      = rowCentred (fun j => val_main_v25 (F := Ideal) x0 x1 x2 x5 x6 (ix2 r j)) j := by
  unfold rowCentred
  rw [val_main_v38_apply, val_main_v37_apply, colOf37, mean_apply, Ideal.subf_def]

/-- The column of reciprocal deviations at row `r`. -/
theorem invStd_apply (r : Fin 100000) :
    val_main_v41 (F := Ideal) x0 x1 x2 x5 x6 (ix2 r (0 : Fin 1))
      = rowInvStd (fun j => val_main_v25 (F := Ideal) x0 x1 x2 x5 x6 (ix2 r j)) := by
  unfold rowInvStd rowMean
  rw [val_main_v41_apply, val_main_v40_apply, val_main_v36_apply, val_main_v34_apply, val_main_v35_apply, val_main_v39_apply,
    val_main_v33_apply, val_main_cst_8_apply, val_main_cst_9_apply, val_main_cst_10_apply]
  simp only [Ideal.hostDivf_def, Ideal.hostUnary_rsqrt_def, Ideal.addf_def, Ideal.ofBits_def, Ideal.ofBits_zero_f32, zero_add]
  refine congrArg (fun s => Ideal.rsqrt (Ideal.div s (Ideal.ofBits .f32 0x43000000#32) + Ideal.ofBits .f32 0x3727C5AC#32))
    (Finset.sum_congr rfl fun k _ => ?_)
  rw [rowOf33, val_main_v32_apply, centred_apply, Ideal.mulf_def]

/-- THE REFERENCE'S RESULT AT `(r, q)` is `rowOut` of row `r` of the aggregated features and of that row's degree weight. -/
theorem result_apply (r : Fin 100000) (q : Fin 128) :
    val_main_v50 (F := Ideal) x0 x1 x2 x3 x4 x5 x6 (ix2 r q)
      = rowOut (fun k => val_main_v19 (F := Ideal) x0 x5 x6 (ix2 r k)) (val_main_v9 (F := Ideal) x6 (ix2 r (0 : Fin 1)))
          (fun k j => x1 (ix2 k j)) (fun j => x2 (ix1 j)) (fun j => x3 (ix1 j)) (fun j => x4 (ix1 j)) q := by
  rw [val_main_v50_apply, val_main_v49_apply, val_main_v46_apply, val_main_v43_apply, val_main_v42_apply, colOf42,
    val_main_v45_apply, val_main_v44_apply, vecOf45, val_main_v48_apply, val_main_v47_apply, vecOf48, val_main_call1_v0_apply,
    val_main_call1_cst_apply, centred_apply', invStd_apply]
  simp only [Ideal.maximumf_def, Ideal.addf_def, Ideal.mulf_def, Ideal.ofBits_def]
  exact rowOut_of_proj (fun k => val_main_v19 (F := Ideal) x0 x5 x6 (ix2 r k)) (val_main_v9 (F := Ideal) x6 (ix2 r (0 : Fin 1)))
    (fun k j => x1 (ix2 k j)) (fun j => x2 (ix1 j)) (fun j => x3 (ix1 j)) (fun j => x4 (ix1 j))
    (fun j => val_main_v25 (F := Ideal) x0 x1 x2 x5 x6 (ix2 r j)) (fun j => proj_apply x0 x1 x2 x5 x6 r j) q

/-- The reference's result is the layer of its aggregated features and degree weights. -/
theorem result_eq :
    val_main_v50 (F := Ideal) x0 x1 x2 x3 x4 x5 x6
      = layer (val_main_v19 (F := Ideal) x0 x5 x6) (val_main_v9 (F := Ideal) x6) x1 x2 x3 x4 := by
  funext i
  obtain ⟨r, q, rfl⟩ : ∃ (r : Fin 100000) (q : Fin 128), i = ix2 r q := ⟨i 0, i 1, eq_ix2 i⟩
  rw [layer_apply]
  exact result_apply x0 x1 x2 x3 x4 x5 x6 r q

end Cert.ReferenceIdeal.RowValue

end
-- ==== Proof.LibKeepdims.lean ====
/-
  Reductions that keep their axis, read at an index given by coordinates.

  A sum over one axis of a matrix that keeps the axis (`jnp.sum(…, keepdims=True)`) is a lane sum to a vector, a shape
  cast of the vector to a column `[a] → [a, 1]` or to a row `[a] → [1, a]`, and a broadcast of the column
  `[a, 1] → [a, b]` or of the row back over the matrix. Here: the column cast and the column broadcast at `(i, j)`, and
  an f32 lane sum over the columns (axis 1) or over the rows (axis 0) of a matrix at the extended reals as a
  `Fin`-indexed sum of the matrix entries.
-/
import Idealize.ShloMosaic.Lib.ValueLayout
import Idealize.ShloMosaic.PureOps.Ideal.Laws

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An f32 lane sum over the COLUMNS of an `[a, b]` matrix of extended reals is, in row `r`, the sum of that row. -/
theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

/-- An f32 lane sum over the ROWS of an `[a, b]` matrix of extended reals is, in column `j`, the sum of that column. -/
theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KernelRow.lean ====
/-
  The kernel body's stored block, one entry at a time.

  At a grid point the body loads a `[5000, 128]` block of aggregated features, the matching `[5000, 1]` column of degree
  weights, the whole `[128, 128]` weight matrix and the three parameter vectors, and stores one `[5000, 128]` block.
  Entry `(p, q)` of the stored block depends on row `p` of the two row-blocked loads only: it is `rowOut` of that row.
  The body's value is taken apart into the blocks it passes through — the projected block, the column of row means, the
  centred block, the column of reciprocal deviations — and each is read at coordinates: a matrix product into a zero
  accumulator is the sum over the contracted index of the products, a lane sum that keeps its axis is the row's sum
  held in a one-column block, and a column broadcast over the lanes reads that column in the entry's row. Format
  changes are the identity on the extended reals.
-/
import proofs.«106041_j8985071583979_1_alg».proof.Proof.Gen.KernelIdeal.Skeleton
import proofs.«106041_j8985071583979_1_alg».proof.Proof.LayerRow
import proofs.«106041_j8985071583979_1_alg».proof.Proof.LibKeepdims
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.RowValue

open Cert.KernelIdeal Cert.KernelIdeal.Gen Idealize.ShloMosaic Idealize.ShloMosaic.ValueIdx Cert.GcnLayer

/-! ## The matrix product at an entry -/

theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A `[5000, 128] × [128, 128]` product accumulated into zero is, at `(p, j)`, the sum over `k` of row `p` of the left
    factor against column `j` of the right one. -/
theorem matmul_zero_apply (L : FVec Ideal S5000x128 .bf16) (R : FVec Ideal S128x128 .bf16) (p : Fin 5000) (j : Fin 128) :
    matmul (F := Ideal) dot_S5000x128_S128x128_S5000x128_1_0_0_1_n_n none L R (constant (F := Ideal) S5000x128 .f32 0x00000000#32) (ix2 p j)
      = ∑ k : Fin 128, L (ix2 p k) * R (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_axis0 _ _).trans hk
    | ⟨1, _⟩ => exact rhs_axis1 _ _)
  rw [el, er]

/-! ## The blocks the body passes through -/

variable (v0 : FVec Ideal S5000x128 .f32) (v2 : FVec Ideal S5000x1 .f32) (v7 : FVec Ideal S128x128 .bf16)
  (v10 v32 v36 : FVec Ideal S128 .f32)

/-- The degree-scaled features, narrowed for the matrix unit. -/
def scaledBlk : FVec Ideal S5000x128 .bf16 :=
  truncf .bf16 (mulf (shapeCast S5000x128 v0 shapeCasts_S5000x128_S5000x128)
    (broadcastTo S5000x128 (shapeCast S5000x1 v2 shapeCasts_S5000x1_S5000x1) broadcasts_S5000x1_S5000x128)) bitsLt_bf16_f32

/-- The projected block: the scaled features times the weights, plus the bias row. -/
def projBlk : FVec Ideal S5000x128 .f32 :=
  addf (matmul (F := Ideal) dot_S5000x128_S128x128_S5000x128_1_0_0_1_n_n none (scaledBlk v0 v2)
      (shapeCast S128x128 v7 shapeCasts_S128x128_S128x128) (constant (F := Ideal) S5000x128 .f32 0x00000000#32))
    (broadcastTo S5000x128 (shapeCast S1x128 v10 shapeCasts_S128_S1x128) broadcasts_S1x128_S5000x128)

/-- A block's column of row means: the lane sum, kept as a column, over `128.0`. -/
def meanCol (P : FVec Ideal S5000x128 .f32) : FVec Ideal S5000x1 .f32 :=
  divf (shapeCast S5000x1 (multiReduction (F := Ideal) .add [1] S5000 P 0x00000000#32 reduces_S5000x128_S5000 (.inl rfl) rfl) shapeCasts_S5000_S5000x1)
    (broadcast S5000x1 (Scalar.ofBits (F := Ideal) .f32 0x43000000#32))

/-- A block minus its column of row means. -/
def centredBlk (P : FVec Ideal S5000x128 .f32) : FVec Ideal S5000x128 .f32 :=
  subf P (broadcastTo S5000x128 (meanCol P) broadcasts_S5000x1_S5000x128)

/-- The column of reciprocal deviations: `rsqrt` of the row means of the squared centred block plus `ε`. -/
def invStdCol (P : FVec Ideal S5000x128 .f32) : FVec Ideal S5000x1 .f32 :=
  rsqrt (addf (meanCol (mulf (centredBlk P) (centredBlk P))) (broadcast S5000x1 (Scalar.ofBits (F := Ideal) .f32 0x3727C5AC#32)))

/-- The stored block from the projected one: normalised, scaled and shifted by the parameter rows, clipped at zero. -/
def normBlk (P : FVec Ideal S5000x128 .f32) : FVec Ideal S5000x128 .f32 :=
  maximumf (addf (mulf (mulf (centredBlk P) (broadcastTo S5000x128 (invStdCol P) broadcasts_S5000x1_S5000x128))
        (broadcastTo S5000x128 (shapeCast S1x128 v32 shapeCasts_S128_S1x128) broadcasts_S1x128_S5000x128))
      (broadcastTo S5000x128 (shapeCast S1x128 v36 shapeCasts_S128_S1x128) broadcasts_S1x128_S5000x128))
    (broadcast S5000x128 (Scalar.ofBits (F := Ideal) .f32 0x00000000#32))

/-- The body's stored value is these blocks composed. -/
theorem pay_eq : k0_pay1 (F := Ideal) v0 v2 v7 v10 v32 v36 = normBlk v32 v36 (projBlk v0 v2 v7 v10) := rfl

/-! ## Each block at coordinates -/

theorem scaledBlk_apply (p : Fin 5000) (k : Fin 128) :
    scaledBlk v0 v2 (ix2 p k) = v0 (ix2 p k) * v2 (ix2 p (0 : Fin 1)) := by
  unfold scaledBlk
  rw [shapeCast_self, shapeCast_self]
  exact congrArg (v0 (ix2 p k) * ·) (broadcastTo_a1_ab_apply v2 broadcasts_S5000x1_S5000x128 p k)

/-- A parameter vector cast to a row and broadcast down the block reads, at `(p, j)`, the vector at `j`. -/
theorem rowBcast_apply (v : FVec Ideal S128 .f32) (p : Fin 5000) (j : Fin 128) :
    broadcastTo S5000x128 (shapeCast S1x128 v shapeCasts_S128_S1x128) broadcasts_S1x128_S5000x128 (ix2 p j) = v (ix1 j) :=
  (broadcastTo_1b_ab_apply _ broadcasts_S1x128_S5000x128 p j).trans (shapeCast_a_1a_apply v shapeCasts_S128_S1x128 0 j)

theorem projBlk_apply (p : Fin 5000) (j : Fin 128) :
    projBlk v0 v2 v7 v10 (ix2 p j)
      = rowProj (fun k => v0 (ix2 p k)) (v2 (ix2 p (0 : Fin 1))) (fun k j => v7 (ix2 k j)) (fun j => v10 (ix1 j)) j := by
  unfold projBlk rowProj
  rw [addf_apply, matmul_zero_apply, rowBcast_apply]
  refine congrArg (· + v10 (ix1 j)) (Finset.sum_congr rfl fun k _ => ?_)
  rw [scaledBlk_apply, shapeCast_self]

theorem meanCol_apply (P : FVec Ideal S5000x128 .f32) (p : Fin 5000) :
    meanCol P (ix2 p (0 : Fin 1)) = rowMean (fun j => P (ix2 p j)) := by
  unfold meanCol rowMean
  rw [divf_apply]
  refine congrArg₂ Ideal.div ?_ rfl
  exact (shapeCast_a_a1_apply _ shapeCasts_S5000_S5000x1 p 0).trans
    (multiReduction_add_cols_apply P reduces_S5000x128_S5000 (.inl rfl) rfl p)

theorem centredBlk_apply (P : FVec Ideal S5000x128 .f32) (p : Fin 5000) (j : Fin 128) :
    centredBlk P (ix2 p j) = rowCentred (fun j => P (ix2 p j)) j := by
  unfold centredBlk rowCentred
  rw [subf_apply, broadcastTo_a1_ab_apply, meanCol_apply]

theorem invStdCol_apply (P : FVec Ideal S5000x128 .f32) (p : Fin 5000) :
    invStdCol P (ix2 p (0 : Fin 1)) = rowInvStd (fun j => P (ix2 p j)) := by
  unfold invStdCol rowInvStd
  show Ideal.rsqrt (meanCol (mulf (centredBlk P) (centredBlk P)) (ix2 p (0 : Fin 1)) + Ideal.ofBits .f32 0x3727C5AC#32) = _
  rw [meanCol_apply]
  refine congrArg (fun m => Ideal.rsqrt (rowMean m + Ideal.ofBits .f32 0x3727C5AC#32)) (funext fun k => ?_)
  rw [mulf_apply, centredBlk_apply]

theorem normBlk_apply (P : FVec Ideal S5000x128 .f32) (p : Fin 5000) (j : Fin 128) :
    normBlk v32 v36 P (ix2 p j)
      = max (rowCentred (fun j => P (ix2 p j)) j * rowInvStd (fun j => P (ix2 p j)) * v32 (ix1 j) + v36 (ix1 j))
          (Ideal.ofBits .f32 0x00000000#32) := by
  unfold normBlk
  rw [maximumf_apply, addf_apply, mulf_apply, mulf_apply, rowBcast_apply, rowBcast_apply, broadcastTo_a1_ab_apply,
    centredBlk_apply, invStdCol_apply]
  rfl

/-- ENTRY `(p, q)` OF THE STORED BLOCK is `rowOut` of row `p` of the loaded features and of that row's degree weight. -/
theorem pay_apply (p : Fin 5000) (q : Fin 128) :
    k0_pay1 (F := Ideal) v0 v2 v7 v10 v32 v36 (ix2 p q)
      = rowOut (fun k => v0 (ix2 p k)) (v2 (ix2 p (0 : Fin 1))) (fun k j => v7 (ix2 k j))
          (fun j => v10 (ix1 j)) (fun j => v32 (ix1 j)) (fun j => v36 (ix1 j)) q := by
  rw [pay_eq, normBlk_apply]
  exact rowOut_of_proj _ _ _ _ (fun j => v32 (ix1 j)) (fun j => v36 (ix1 j)) _ (fun j => projBlk_apply v0 v2 v7 v10 p j) q

end Cert.KernelIdeal.RowValue

end
-- ==== Proof.Blocks.lean ====
/-
  From the blocks the kernel writes to the whole output array.

  The region has twenty grid points; at point `t` the output window's block is rows `5000·t … 5000·t + 4999` (all 128
  columns) of the output, the first two input windows' blocks are the same rows of the aggregated features and of the
  degree-weight column, and the other four windows hold the whole weight matrix and the three parameter vectors at
  every point. So entry `y` of the block point `t` stores is the layer's value at the array entry the block puts `y`
  on: a block row is an array row, and `rowOut` of it reads the same numbers either way. The twenty blocks tile the
  100000 rows (row `r` lies in block `r / 5000`), so the output array ends as the layer of the arrays the region found.
-/
import proofs.«106041_j8985071583979_1_alg».proof.Proof.Gen.KernelIdeal.Value
import proofs.«106041_j8985071583979_1_alg».proof.Proof.KernelRow

noncomputable section

namespace Cert.KernelIdeal.ArrayValue

open Cert.KernelIdeal Cert.KernelIdeal.Gen Idealize.ShloMosaic Idealize.ShloMosaic.TcCoe Idealize.SL.Sem
open Idealize.ShloMosaic.ValueIdx Cert.GcnLayer
open Idealize.ShloMosaic.Pipeline (Dat)

/-! ## Where the blocks lie, for any float values

Which array entry a block entry sits on is a fact about the index maps alone; it is stated for any float values, and
the arrays the region finds are named once and then carried as they stand. -/

section Geometry

variable {F : FTy → Type} [FloatOps F]
variable (m : (ℓ : Loc nD τ sig) → Buf (Elt F) ℓ)

/-- The aggregated features as the region finds them. -/
def aggArr (c : Dev nD) : FVec F S100000x128 .f32 := V m c main_v19
/-- The degree-weight column as the region finds it. -/
def wgtCol (c : Dev nD) : FVec F S100000x1 .f32 := V m c main_v9
/-- The narrowed weight matrix as the region finds it. -/
def wMat (c : Dev nD) : FVec F S128x128 .bf16 := V m c main_v20
/-- The bias, scale and shift vectors as the region finds them. -/
def bVec (c : Dev nD) : FVec F S128 .f32 := V m c main_arg2
def gVec (c : Dev nD) : FVec F S128 .f32 := V m c main_arg3
def beVec (c : Dev nD) : FVec F S128 .f32 := V m c main_arg4

theorem aggArr_eq (c : Dev nD) : aggArr m c = V m c main_v19 := rfl
theorem wgtCol_eq (c : Dev nD) : wgtCol m c = V m c main_v9 := rfl
theorem wMat_eq (c : Dev nD) : wMat m c = V m c main_v20 := rfl
theorem bVec_eq (c : Dev nD) : bVec m c = V m c main_arg2 := rfl
theorem gVec_eq (c : Dev nD) : gVec m c = V m c main_arg3 := rfl
theorem beVec_eq (c : Dev nD) : beVec m c = V m c main_arg4 := rfl

attribute [irreducible] aggArr wgtCol wMat bVec gVec beVec

/-- Each window's block at a point, by its literal type. -/
abbrev blk0 (c : Dev nD) (t : Fin cfg0.N) : FVec F S5000x128 .f32 := iblk m c 0 t
abbrev blk1 (c : Dev nD) (t : Fin cfg0.N) : FVec F S5000x1 .f32 := iblk m c 1 t
abbrev blk2 (c : Dev nD) (t : Fin cfg0.N) : FVec F S128x128 .bf16 := iblk m c 2 t
abbrev blk3 (c : Dev nD) (t : Fin cfg0.N) : FVec F S128 .f32 := iblk m c 3 t
abbrev blk4 (c : Dev nD) (t : Fin cfg0.N) : FVec F S128 .f32 := iblk m c 4 t
abbrev blk5 (c : Dev nD) (t : Fin cfg0.N) : FVec F S128 .f32 := iblk m c 5 t

/-- The index maps over the twenty points: the row-blocked windows are at block row `t`, column block `0`; the
    whole-array windows are at block `0`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 ∧ win0_4.index t (0 : Fin 1) = 0 ∧ win0_5.index t (0 : Fin 1) = 0
    ∧ win0_6.index t (0 : Fin 2) = t.val ∧ win0_6.index t (1 : Fin 2) = 0 :=
  (by decide +kernel : ∀ t : Fin grid0.N, _)

theorem origin2 : (![0, 0] : Fin 2 → Nat) = fun _ => 0 := funext fun a => by fin_cases a <;> rfl
theorem origin1 : (![0] : Fin 1 → Nat) = fun _ => 0 := funext fun a => by fin_cases a; rfl

/-- The array row that row `p` of the blocks at point `t` is: `5000 · t + p`. -/
def rowAt (t : Fin cfg0.N) (p : Fin 5000) : Fin 100000 :=
  ⟨t.val * 5000 + p.val, by have := t.isLt; have hN : cfg0.N = 20 := N_0; have := p.isLt; omega⟩

/-- The output block at point `t` puts its entry `z` on row `5000 · t + z₀`, column `z₁`, of the array. -/
theorem out_emb (t : Fin cfg0.N) (z : S5000x128.Idx) :
    ((cfg0.win 6).blk t).view.emb z = (ix2 (n0 := 100000) (n1 := 128) (rowAt t ⟨(z 0).val, (z 0).isLt⟩) ⟨(z 1).val, (z 1).isLt⟩) := by
  obtain ⟨-, -, -, -, -, -, -, -, -, e60, e61⟩ := idx_facts t
  refine funext fun a => Fin.ext ?_
  match a with
  | ⟨0, _⟩ => show win0_6.index t (0 : Fin 2) * 5000 + 1 * (z 0).val = t.val * 5000 + (z 0).val; omega
  | ⟨1, _⟩ => show win0_6.index t (1 : Fin 2) * 128 + 1 * (z 1).val = (z 1).val; omega

/-- The first window's block at point `t` reads the aggregated features on the same rows. -/
theorem read0 (c : Dev nD) (t : Fin cfg0.N) (z : S5000x128.Idx) :
    blk0 m c t z = aggArr m c (ix2 (n0 := 100000) (n1 := 128) (rowAt t ⟨(z 0).val, (z 0).isLt⟩) ⟨(z 1).val, (z 1).isLt⟩) := by
  obtain ⟨e00, e01, -, -, -, -, -, -, -, -, -⟩ := idx_facts t
  rw [aggArr_eq]
  show V m c main_v19 (((cfg0.win 0).blk t).view.emb z) = V m c main_v19 (ix2 (n0 := 100000) (n1 := 128) (rowAt t ⟨(z 0).val, (z 0).isLt⟩) ⟨(z 1).val, (z 1).isLt⟩)
  refine congrArg (V m c main_v19) (funext fun a => Fin.ext ?_)
  match a with
  | ⟨0, _⟩ => show win0_0.index t (0 : Fin 2) * 5000 + 1 * (z 0).val = t.val * 5000 + (z 0).val; omega
  | ⟨1, _⟩ => show win0_0.index t (1 : Fin 2) * 128 + 1 * (z 1).val = (z 1).val; omega

/-- The second window's block at point `t` reads the degree-weight column on the same rows. -/
theorem read1 (c : Dev nD) (t : Fin cfg0.N) (z : S5000x1.Idx) :
    blk1 m c t z = wgtCol m c (ix2 (n0 := 100000) (n1 := 1) (rowAt t ⟨(z 0).val, (z 0).isLt⟩) ⟨(z 1).val, (z 1).isLt⟩) := by
  obtain ⟨-, -, e10, e11, -, -, -, -, -, -, -⟩ := idx_facts t
  rw [wgtCol_eq]
  show V m c main_v9 (((cfg0.win 1).blk t).view.emb z) = V m c main_v9 (ix2 (n0 := 100000) (n1 := 1) (rowAt t ⟨(z 0).val, (z 0).isLt⟩) ⟨(z 1).val, (z 1).isLt⟩)
  refine congrArg (V m c main_v9) (funext fun a => Fin.ext ?_)
  match a with
  | ⟨0, _⟩ => show win0_1.index t (0 : Fin 2) * 5000 + 1 * (z 0).val = t.val * 5000 + (z 0).val; omega
  | ⟨1, _⟩ => show win0_1.index t (1 : Fin 2) * 1 + 1 * (z 1).val = (z 1).val; omega

/-- The third window's block is the whole weight matrix at every point, and the last three windows' blocks are the
    whole parameter vectors. -/
theorem read2 (c : Dev nD) (t : Fin cfg0.N) (z : S128x128.Idx) : blk2 m c t z = wMat m c z := by
  obtain ⟨e00, e01, e10, e11, e20, e21, e3, e4, e5, e60, e61⟩ := idx_facts t
  rw [wMat_eq]
  show V m c main_v20 (((cfg0.win 2).blk t).view.emb z) = V m c main_v20 z
  refine congrArg (V m c main_v20) (funext fun a => Fin.ext ?_)
  match a with
  | ⟨0, _⟩ => show win0_2.index t (0 : Fin 2) * 128 + 1 * (z 0).val = (z 0).val; omega
  | ⟨1, _⟩ => show win0_2.index t (1 : Fin 2) * 128 + 1 * (z 1).val = (z 1).val; omega

theorem read3 (c : Dev nD) (t : Fin cfg0.N) (z : S128.Idx) : blk3 m c t z = bVec m c z := by
  obtain ⟨e00, e01, e10, e11, e20, e21, e3, e4, e5, e60, e61⟩ := idx_facts t
  rw [bVec_eq]
  show V m c main_arg2 (((cfg0.win 3).blk t).view.emb z) = V m c main_arg2 z
  refine congrArg (V m c main_arg2) (funext fun a => Fin.ext ?_)
  match a with
  | ⟨0, _⟩ => show win0_3.index t (0 : Fin 1) * 128 + 1 * (z 0).val = (z 0).val; omega

theorem read4 (c : Dev nD) (t : Fin cfg0.N) (z : S128.Idx) : blk4 m c t z = gVec m c z := by
  obtain ⟨e00, e01, e10, e11, e20, e21, e3, e4, e5, e60, e61⟩ := idx_facts t
  rw [gVec_eq]
  show V m c main_arg3 (((cfg0.win 4).blk t).view.emb z) = V m c main_arg3 z
  refine congrArg (V m c main_arg3) (funext fun a => Fin.ext ?_)
  match a with
  | ⟨0, _⟩ => show win0_4.index t (0 : Fin 1) * 128 + 1 * (z 0).val = (z 0).val; omega

theorem read5 (c : Dev nD) (t : Fin cfg0.N) (z : S128.Idx) : blk5 m c t z = beVec m c z := by
  obtain ⟨e00, e01, e10, e11, e20, e21, e3, e4, e5, e60, e61⟩ := idx_facts t
  rw [beVec_eq]
  show V m c main_arg4 (((cfg0.win 5).blk t).view.emb z) = V m c main_arg4 z
  refine congrArg (V m c main_arg4) (funext fun a => Fin.ext ?_)
  match a with
  | ⟨0, _⟩ => show win0_5.index t (0 : Fin 1) * 128 + 1 * (z 0).val = (z 0).val; omega

/-- An array index is in point `t`'s output block iff each coordinate is in the block's range on its axis. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v21).slice (win0_6.rect t)).set ↔ _
  rw [View.set_slice_whole, Rect.mem_set_unit]
  exact Iff.rfl

/-- Every array index lies in the output block of the point its row falls in. -/
theorem cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, e60, e61⟩ := idx_facts t
  refine ⟨t, flush0_6 t, ?_⟩
  rw [mem_blk]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- What point `t` writes back is the body's value of the windows' blocks at `t`, entry by entry. -/
theorem flushed_pay (c : Dev nD) (t : Fin cfg0.N) :
    (dats m 0 c).flushed 6 t
      = fun y : S5000x128.Idx => k0_pay1 (blk0 m c t) (blk1 m c t) (blk2 m c t) (blk3 m c t) (blk4 m c t) (blk5 m c t) y := by
  rw [Value.flushed6]
  unfold out0_6
  rw [View.canon_unit_zero origin2]
  simp only [View.ld_unit_zero (S := S5000x128) origin2, View.ld_unit_zero (S := S5000x1) origin2,
    View.ld_unit_zero (S := S128x128) origin2, View.ld_unit_zero (S := S128) origin1]
  funext y
  rfl

/-- An array read through the output block at `t` is the array at the entries the block puts its own on. -/
theorem read_out (G : FVec F S100000x128 .f32) (t : Fin cfg0.N) :
    ((cfg0.win 6).blk t).view.read (Elt F) G = fun y : S5000x128.Idx => G (((cfg0.win 6).blk t).view.emb y) := rfl

end Geometry

/-! ## On the extended reals: one stored entry, what a point writes back, and the array -/

variable (m : (ℓ : Loc nD τ sig) → Buf (Elt Ideal) ℓ) (ρ : Dev nD → PrngReg)

/-- What the output array ends holding: the layer of the arrays the region found. -/
def outArr (c : Dev nD) : FVec Ideal S100000x128 .f32 :=
  layer (aggArr m c) (wgtCol m c) (wMat m c) (bVec m c) (gVec m c) (beVec m c)

/-- ENTRY `(p, q)` OF THE BLOCK POINT `t` STORES is the layer's value at row `5000 · t + p`, column `q`. -/
theorem entry_at (c : Dev nD) (t : Fin cfg0.N) (p : Fin 5000) (q : Fin 128) :
    k0_pay1 (F := Ideal) (blk0 m c t) (blk1 m c t) (blk2 m c t) (blk3 m c t) (blk4 m c t) (blk5 m c t) (ix2 p q)
      = outArr m c (ix2 (rowAt t p) q) := by
  refine (RowValue.pay_apply (blk0 m c t) (blk1 m c t) (blk2 m c t) (blk3 m c t) (blk4 m c t) (blk5 m c t) p q).trans ?_
  unfold outArr
  rw [layer_apply]
  exact rowOut_congr (fun k => read0 m c t (ix2 p k)) (read1 m c t (ix2 p (0 : Fin 1))) (fun k j => read2 m c t (ix2 k j))
    (fun j => read3 m c t (ix1 j)) (fun j => read4 m c t (ix1 j)) (fun j => read5 m c t (ix1 j)) rfl

/-- ENTRY `y` OF THE BLOCK POINT `t` STORES is the layer's value at the array entry the output block puts `y` on. -/
theorem entry_eq (c : Dev nD) (t : Fin cfg0.N) (y : S5000x128.Idx) :
    k0_pay1 (F := Ideal) (blk0 m c t) (blk1 m c t) (blk2 m c t) (blk3 m c t) (blk4 m c t) (blk5 m c t) y
      = outArr m c (((cfg0.win 6).blk t).view.emb y) := by
  rw [out_emb t y]
  exact (congrArg (k0_pay1 (F := Ideal) (blk0 m c t) (blk1 m c t) (blk2 m c t) (blk3 m c t) (blk4 m c t) (blk5 m c t)) (eq_ix2 y)).trans
    (entry_at m c t (y 0) (y 1))

/-- WHAT POINT `t` WRITES BACK is block `t` of the layer. -/
theorem flushed_eq (c : Dev nD) (t : Fin cfg0.N) :
    (dats m 0 c).flushed 6 t = ((cfg0.win 6).blk t).view.read (Elt Ideal) (outArr m c) := by
  rw [flushed_pay, read_out]
  funext y
  exact entry_eq m c t y

/-- THE OUTPUT ARRAY after the run is the layer of the arrays the region found. -/
theorem final (c : Dev nD) : (dats m 0 c).arrAt 6 cfg0.N = outArr m c :=
  (dats m 0 c).arrAt_eq_of_cover 6 (outArr m c) (fun t _ => flushed_eq m c t) cover

/-- The kernel's run with its result named: the layer of the arrays the region found, the arguments unchanged. -/
theorem run : θ_run defs (onTc (τ := τ) (main (F := Ideal))) ⟨m, fun _ => 0, ρ⟩ fun r => ∀ c : Dev nD,
      r.2.mem ((c : Thread nD τ).loc main_v21) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.ArrayValue

end
-- ==== Proof.HostGlue.lean ====
/-
  The arrays the kernel region reads that the host computes first.

  Before the region the kernel's program runs, on the host, the same operations as the reference: the degree of every
  node as a segment sum of ones, its reciprocal where the degree is positive and zero elsewhere, laid out as a column;
  the gather of the source rows and their segment sum over the destinations; and it narrows the weights for the matrix
  unit. So when the region is entered the array under its first window holds the reference's aggregated features, the
  one under its second window the reference's degree-weight column, and the one under its third the weights narrowed.
  The segment sums and the gather are the same operations applied to the same arguments on both sides: they are matched
  as they stand and never opened.
-/
import proofs.«106041_j8985071583979_1_alg».proof.Proof.Gen.KernelIdeal.Frame
import proofs.«106041_j8985071583979_1_alg».proof.Proof.RefRead
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The first window's array is the segment sum of the gathered source rows: the reference's aggregated features. -/
theorem V_aggregated (c : Dev nD) :
    V m c main_v19 = Cert.ReferenceIdeal.ReadP.val_main_v19 (F := F) (m ((c : Thread nD τ).loc main_arg0)) (m ((c : Thread nD τ).loc main_arg5)) (m ((c : Thread nD τ).loc main_arg6)) := by
  dsimp only [V]
  simp only [hostOps0, hostOps0_1, hostOps0_2, List.flatten_cons, List.flatten_nil, List.append_nil, List.cons_append, List.nil_append]
  after_results_simp
  rfl

/-- The second window's array is the column of degree weights: the reference's. -/
theorem V_degreeWeight (c : Dev nD) :
    V m c main_v9 = Cert.ReferenceIdeal.ReadP.val_main_v9 (F := F) (m ((c : Thread nD τ).loc main_arg6)) := by
  dsimp only [V]
  simp only [hostOps0, hostOps0_1, hostOps0_2, List.flatten_cons, List.flatten_nil, List.append_nil, List.cons_append, List.nil_append]
  after_results_simp
  rfl

/-- The third window's array is the weight matrix narrowed to the matrix unit's format. -/
theorem V_weights (c : Dev nD) :
    V m c main_v20 = (truncf .bf16 (m ((c : Thread nD τ).loc main_arg1)) bitsLt_bf16_f32 : FVec F S128x128 .bf16) := by
  dsimp only [V]
  simp only [hostOps0, hostOps0_1, hostOps0_2, List.flatten_cons, List.flatten_nil, List.append_nil, List.cons_append, List.nil_append]
  after_results_simp

/-- On the extended reals narrowing changes nothing: there the third window's array is the weight matrix itself. -/
theorem V_weights_exact (m : (ℓ : Loc nD τ sig) → Buf (Elt Ideal) ℓ) (c : Dev nD) :
    (V m c main_v20 : S128x128.Idx → EReal) = (m ((c : Thread nD τ).loc main_arg1)) :=
  (V_weights m c).trans (funext fun _ => rfl)

end Cert.KernelIdeal.HostValue

end
-- ==== Proof.lean ====
/-
  A graph-convolution layer — neighbour features summed per destination node and scaled by the reciprocal degree, a
  linear map, LayerNorm over the 128 features, the positive part — computed by a kernel tiled over the rows after
  host-side segment sums, against the same layer computed whole on the host: equal on the extended reals.

  Both programs begin with the same host operations on the same arguments: the degree of each node (a segment sum of
  ones), its reciprocal where positive and zero elsewhere, and the aggregated features (the segment sum over the
  destinations of the gathered source rows). Call these `nrm` and `ah`. From there a row of the result depends only on
  the same row of `ah` and of `nrm`: Proof/LayerRow.lean states that row function (`rowOut`) and the whole array as it
  (`layer`). The kernel stores, at each of twenty grid points, a block of 5000 rows whose entries are `rowOut` of the
  block's rows (Proof/KernelRow.lean), and the blocks tile the array (Proof/Blocks.lean), so its output is `layer` of
  the arrays the region finds, which are the reference's `ah` and `nrm` and the weights unchanged by narrowing
  (Proof/HostGlue.lean). The reference's result is `layer` of `ah`, `nrm` and the parameters (Proof/RefRow.lean). The
  matrix product and the two lane sums read as the same sums in the same order on both sides, the two divisions are by
  the same `128.0`, the reciprocal square roots are one function, so no law of arithmetic joins the sides and the
  finiteness of the inputs is not used. The reference's run is read from Proof/RefRun.lean and Proof/RefRead.lean.

  The three frames are the generated frame runs (the reference's is its run with the result dropped); the
  idealization changed no operation, so `preserves` asks nothing.
-/
import proofs.«106041_j8985071583979_1_alg».proof.Defs
import proofs.«106041_j8985071583979_1_alg».proof.Proof.Gen.Kernel
import proofs.«106041_j8985071583979_1_alg».proof.Proof.Gen.Kernel.Skeleton
import proofs.«106041_j8985071583979_1_alg».proof.Proof.Gen.Kernel.Launch
import proofs.«106041_j8985071583979_1_alg».proof.Proof.Gen.Kernel.Points
import proofs.«106041_j8985071583979_1_alg».proof.Proof.Gen.Kernel.Frame
import proofs.«106041_j8985071583979_1_alg».proof.Proof.Gen.KernelIdeal
import proofs.«106041_j8985071583979_1_alg».proof.Proof.Gen.KernelIdeal.Skeleton
import proofs.«106041_j8985071583979_1_alg».proof.Proof.Gen.KernelIdeal.Launch
import proofs.«106041_j8985071583979_1_alg».proof.Proof.Gen.KernelIdeal.Points
import proofs.«106041_j8985071583979_1_alg».proof.Proof.Gen.KernelIdeal.Frame
import proofs.«106041_j8985071583979_1_alg».proof.Proof.Gen.ReferenceIdeal
import proofs.«106041_j8985071583979_1_alg».proof.Proof.Gen.Pre_finite_inputs
import proofs.«106041_j8985071583979_1_alg».proof.Proof.Gen.KernelIdeal.Value
import proofs.«106041_j8985071583979_1_alg».proof.Proof.RefRun
import proofs.«106041_j8985071583979_1_alg».proof.Proof.RefRead
import proofs.«106041_j8985071583979_1_alg».proof.Proof.RefRow
import proofs.«106041_j8985071583979_1_alg».proof.Proof.Blocks
import proofs.«106041_j8985071583979_1_alg».proof.Proof.HostGlue
import Idealize.ShloMosaic.Adequacy
import Idealize.ShloMosaic.Init

noncomputable section

namespace Cert.Proof

open Idealize.ShloMosaic Idealize.ShloMosaic.TcCoe Idealize.SL.Sem Cert.GcnLayer

/-! ## The arrays the kernel region finds, as functions of the arguments -/

section RegionArrays

variable {F : FTy → Type} [FloatOps F]
  (m : (ℓ : Loc Cert.KernelIdeal.nD Cert.KernelIdeal.τ Cert.KernelIdeal.sig) → Buf (Elt F) ℓ) (c : Dev Cert.KernelIdeal.nD)

/-- The aggregated features the region finds are the reference's, of the same arguments. -/
theorem agg_is : Cert.KernelIdeal.ArrayValue.aggArr m c
    = Cert.ReferenceIdeal.ReadP.val_main_v19 (F := F) (m ((c : Thread Cert.KernelIdeal.nD Cert.KernelIdeal.τ).loc Cert.KernelIdeal.main_arg0)) (m ((c : Thread Cert.KernelIdeal.nD Cert.KernelIdeal.τ).loc Cert.KernelIdeal.main_arg5)) (m ((c : Thread Cert.KernelIdeal.nD Cert.KernelIdeal.τ).loc Cert.KernelIdeal.main_arg6)) :=
  (Cert.KernelIdeal.ArrayValue.aggArr_eq m c).trans (Cert.KernelIdeal.HostValue.V_aggregated m c)
/-- The degree-weight column the region finds is the reference's. -/
theorem wgt_is : Cert.KernelIdeal.ArrayValue.wgtCol m c = Cert.ReferenceIdeal.ReadP.val_main_v9 (F := F) (m ((c : Thread Cert.KernelIdeal.nD Cert.KernelIdeal.τ).loc Cert.KernelIdeal.main_arg6)) :=
  (Cert.KernelIdeal.ArrayValue.wgtCol_eq m c).trans (Cert.KernelIdeal.HostValue.V_degreeWeight m c)
/-- The three parameter vectors the region finds are the arguments. -/
theorem bias_is : Cert.KernelIdeal.ArrayValue.bVec m c = (m ((c : Thread Cert.KernelIdeal.nD Cert.KernelIdeal.τ).loc Cert.KernelIdeal.main_arg2)) :=
  (Cert.KernelIdeal.ArrayValue.bVec_eq m c).trans (Cert.KernelIdeal.Gen.V_main_arg2 m c)
theorem scale_is : Cert.KernelIdeal.ArrayValue.gVec m c = (m ((c : Thread Cert.KernelIdeal.nD Cert.KernelIdeal.τ).loc Cert.KernelIdeal.main_arg3)) :=
  (Cert.KernelIdeal.ArrayValue.gVec_eq m c).trans (Cert.KernelIdeal.Gen.V_main_arg3 m c)
theorem shift_is : Cert.KernelIdeal.ArrayValue.beVec m c = (m ((c : Thread Cert.KernelIdeal.nD Cert.KernelIdeal.τ).loc Cert.KernelIdeal.main_arg4)) :=
  (Cert.KernelIdeal.ArrayValue.beVec_eq m c).trans (Cert.KernelIdeal.Gen.V_main_arg4 m c)

end RegionArrays

/-- On the extended reals the narrowed weights the region finds are the weight matrix itself. -/
theorem weights_is (m : (ℓ : Loc Cert.KernelIdeal.nD Cert.KernelIdeal.τ Cert.KernelIdeal.sig) → Buf (Elt Ideal) ℓ)
    (c : Dev Cert.KernelIdeal.nD) :
    (Cert.KernelIdeal.ArrayValue.wMat m c : Cert.KernelIdeal.S128x128.Idx → EReal) = (m ((c : Thread Cert.KernelIdeal.nD Cert.KernelIdeal.τ).loc Cert.KernelIdeal.main_arg1)) :=
  (Cert.KernelIdeal.ArrayValue.wMat_eq m c).trans (Cert.KernelIdeal.HostValue.V_weights_exact m c)

/-- The kernel's output array is the layer of the reference's aggregated features and degree weights of the same
    arguments, and of the parameters. -/
theorem kernel_out_eq (m : (ℓ : Loc Cert.KernelIdeal.nD Cert.KernelIdeal.τ Cert.KernelIdeal.sig) → Buf (Elt Ideal) ℓ)
    (c : Dev Cert.KernelIdeal.nD) :
    Cert.KernelIdeal.ArrayValue.outArr m c
      = layer (Cert.ReferenceIdeal.ReadP.val_main_v19 (F := Ideal) (m ((c : Thread Cert.KernelIdeal.nD Cert.KernelIdeal.τ).loc Cert.KernelIdeal.main_arg0)) (m ((c : Thread Cert.KernelIdeal.nD Cert.KernelIdeal.τ).loc Cert.KernelIdeal.main_arg5)) (m ((c : Thread Cert.KernelIdeal.nD Cert.KernelIdeal.τ).loc Cert.KernelIdeal.main_arg6)))
          (Cert.ReferenceIdeal.ReadP.val_main_v9 (F := Ideal) (m ((c : Thread Cert.KernelIdeal.nD Cert.KernelIdeal.τ).loc Cert.KernelIdeal.main_arg6)))
          (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) := by
  unfold Cert.KernelIdeal.ArrayValue.outArr
  rw [agg_is, wgt_is, weights_is, bias_is, scale_is, shift_is]

/-- The two idealized programs, run from memories that agree on the arguments, end with the same result array: the
    kernel's is the layer of `ah` and `nrm` (its blocks laid out, the host glue), and so is the reference's. -/
theorem algebraic : Cert.algebraic_KernelIdeal_ReferenceIdeal := by
  intro m ρ m' ρ' _ hagree
  refine ⟨fun c => Cert.KernelIdeal.ArrayValue.outArr m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6⟩ := hagree c
  show Cert.ReferenceIdeal.ValueP.res_main_v50 m' c = Cert.KernelIdeal.ArrayValue.outArr m c
  rw [Cert.ReferenceIdeal.ReadP.val_main_v50_eq, h0, h1, h2, h3, h4, h5, h6, Cert.ReferenceIdeal.RowValue.result_eq, kernel_out_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
